-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x4 : Shape := ⟨2, ![16, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x4 .f32) (main_arg5 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x4 .f32 := Host.absf main_arg4
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x4 : Shape := ⟨2, ![16, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x128 : Shape := ⟨2, ![4000, 128]⟩
abbrev S4000x16 : Shape := ⟨2, ![4000, 16]⟩
abbrev S3300000x16 : Shape := ⟨2, ![3300000, 16]⟩
abbrev S1x16 : Shape := ⟨2, ![1, 16]⟩
abbrev S100000x4 : Shape := ⟨2, ![100000, 4]⟩
abbrev S4000x4 : Shape := ⟨2, ![4000, 4]⟩
abbrev S3300000x4 : Shape := ⟨2, ![3300000, 4]⟩
abbrev S1x4 : Shape := ⟨2, ![1, 4]⟩
abbrev S4000 : Shape := ⟨1, ![4000]⟩
abbrev S4000x1 : Shape := ⟨2, ![4000, 1]⟩

abbrev nBuf : Space → Nat
  | .hbm => 85
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .bf16⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .bf16⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x4, .bf16⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x4, .bf16⟩
  | .hbm, ⟨75, _⟩ => ⟨S3300000x1, .f32⟩
  | .hbm, ⟨76, _⟩ => ⟨S3300000x4, .f32⟩
  | .hbm, ⟨77, _⟩ => ⟨S3300000x4, .f32⟩
  | .hbm, ⟨78, _⟩ => ⟨S3300000x4, .f32⟩
  | .hbm, ⟨79, _⟩ => ⟨S_, .f32⟩
  | .hbm, ⟨80, _⟩ => ⟨S100000x4, .f32⟩
  | .hbm, ⟨81, _⟩ => ⟨S3300000x1, .i32⟩
  | .hbm, ⟨82, _⟩ => ⟨S100000x4, .f32⟩
  | .hbm, ⟨83, _⟩ => ⟨S1x4, .f32⟩
  | .hbm, ⟨84, _⟩ => ⟨S100000x4, .f32⟩
  | .local _ .vmem, ⟨0, _⟩ => ⟨S4000x128, .f32⟩
  | .local _ .vmem, ⟨1, _⟩ => ⟨S4000x128, .f32⟩
  | .local _ .vmem, ⟨2, _⟩ => ⟨S128x16, .f32⟩
  | .local _ .vmem, ⟨3, _⟩ => ⟨S4000x16, .bf16⟩
  | .local _ .vmem, ⟨4, _⟩ => ⟨S4000x16, .bf16⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x4, .f32⟩
  | .local _ .vmem, ⟨9, _⟩ => ⟨S4000x4, .bf16⟩
  | .local _ .vmem, ⟨10, _⟩ => ⟨S4000x4, .bf16⟩
  | .local _ .vmem, ⟨11, _⟩ => ⟨S4000x4, .f32⟩
  | .local _ .vmem, ⟨12, _⟩ => ⟨S4000x4, .f32⟩
  | .local _ .vmem, ⟨13, _⟩ => ⟨S1x4, .f32⟩
  | .local _ .vmem, ⟨14, _⟩ => ⟨S4000x4, .f32⟩
  | .local _ .vmem, ⟨15, _⟩ => ⟨S4000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x4 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x4_S16x4_0_0 : ∀ a, (![0, 0] : Fin 2 → Nat) a + S16x4.size a ≤ S16x4.size a
  h_S16x4 : 0 < S16x4.numel
  inb_S4000x4_S4000x4_0_0 : ∀ a, (![0, 0] : Fin 2 → Nat) a + S4000x4.size a ≤ S4000x4.size a
  h_S4000x4 : 0 < S4000x4.numel
  packedbf16_S4000x4_S4000x4_0_0 : (Rect.unit (s := S4000x4) ![0, 0] S4000x4.size inb_S4000x4_S4000x4_0_0).PackedRows (EltTy.packing .bf16)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S4000x4_S4000x4 : S4000x4.ShapeCasts S4000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  reduces_S4000x4_S4000 : S4000x4.Reduces [1] S4000
  shapeCasts_S4000_S4000x1 : S4000.ShapeCasts S4000x1
  broadcasts_S4000x1_S4000x4 : S4000x1.Broadcasts S4000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x128_S128x16_S4000x16_1_0_0_1_n_n_wf : DotDims.WF S4000x128 S128x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x4_S4000x4_1_0_0_1_n_n_wf : DotDims.WF S4000x16 S16x4 S4000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .bf16 = 32 ∨ (Rect.block (s := S100000x16) S4000x16.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x4.size a ≤ S16x4.size a
  hwx1_2 : ∀ i : grid1.Coords, EltTy.bits .f32 = 32 ∨ (Rect.block (s := S16x4) S16x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x4.size a ≤ S100000x4.size a
  hwx1_3 : ∀ i : grid1.Coords, EltTy.bits .bf16 = 32 ∨ (Rect.block (s := S100000x4) S4000x4.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x4.size a ≤ S100000x4.size a
  hwx2_0 : ∀ i : grid2.Coords, EltTy.bits .f32 = 32 ∨ (Rect.block (s := S100000x4) S4000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4.size a ≤ S1x4.size a
  hwx2_1 : ∀ i : grid2.Coords, EltTy.bits .f32 = 32 ∨ (Rect.block (s := S1x4) S1x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x4.size a ≤ S100000x4.size a
  hwx2_2 : ∀ i : grid2.Coords, EltTy.bits .f32 = 32 ∨ (Rect.block (s := S100000x4) S4000x4.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x4_S4000x4_1_0_0_1_n_n : DotDims S4000x16 S16x4 S4000x4 where
  lhsContracting := [1]
  rhsContracting := [0]
  lhsNonContracting := [0]
  rhsNonContracting := [1]
  lhsBatch := []
  rhsBatch := []
  wf := dot_S4000x16_S16x4_S4000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S4000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S4000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x4 : Shape := ⟨2, ![16, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x4 : Shape := ⟨2, ![100000, 4]⟩
abbrev S3300000x4 : Shape := ⟨2, ![3300000, 4]⟩
abbrev S1x4 : Shape := ⟨2, ![1, 4]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x4, .f32⟩
  | 5 => ⟨S4, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S100000x4, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x4, .f32⟩
  | 112 => ⟨S3300000x1, .f32⟩
  | 113 => ⟨S3300000x4, .f32⟩
  | 114 => ⟨S3300000x4, .f32⟩
  | 115 => ⟨S_, .f32⟩
  | 116 => ⟨S100000x4, .f32⟩
  | 117 => ⟨S3300000x1, .i32⟩
  | 118 => ⟨S100000x4, .f32⟩
  | 119 => ⟨S1x4, .f32⟩
  | 120 => ⟨S100000x4, .f32⟩
  | 121 => ⟨S100000x4, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x4, .f32⟩
  | 1 => ⟨S100000x4, .f32⟩
  | 2 => ⟨S100000x4, .f32⟩
  | 3 => ⟨S_, .f32⟩
  | 4 => ⟨S100000, .f32⟩
  | 5 => ⟨S100000x1, .f32⟩
  | 6 => ⟨S100000x1, .f32⟩
  | 7 => ⟨S100000x4, .f32⟩
  | 8 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.Dense1.lean ====
/-
  The first pallas_call: the node features times the first weight matrix, 4000 rows of nodes at a grid point.

  At a grid point t the body loads rows 4000·t … 4000·t + 3999 of the features (a [4000, 128] block) and the whole
  [128, 16] weight matrix, multiplies them into a zero accumulator and stores the [4000, 16] product. Over the extended
  reals the two roundings to the narrower float format are the identity, so entry (p, q) of the stored block is
      Σ_k x(4000·t + p, k) · w(k, q),
  which is entry (4000·t + p, q) of the whole product x · w. The 25 output blocks tile the [100000, 16] array, so after
  the region the array holds x · w, index by index.
-/
import proofs.«402008_j45853070852446_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem
open Idealize.ShloMosaic.Pipeline (Dat)

/-- Row `r`, column `k` of the feature array. -/
abbrev xIdx (r : Fin 100000) (k : Fin 128) : S100000x128.Idx := fun a => match a with
  | ⟨0, _⟩ => ⟨r.val, r.isLt⟩
  | ⟨1, _⟩ => ⟨k.val, k.isLt⟩
/-- Row `k`, column `q` of the weight matrix. -/
abbrev wIdx (k : Fin 128) (q : Fin 16) : S128x16.Idx := fun a => match a with
  | ⟨0, _⟩ => ⟨k.val, k.isLt⟩
  | ⟨1, _⟩ => ⟨q.val, q.isLt⟩
/-- Row `p`, column `k` of a feature block. -/
abbrev xbIdx (p : Fin 4000) (k : Fin 128) : S4000x128.Idx := fun a => match a with
  | ⟨0, _⟩ => ⟨p.val, p.isLt⟩
  | ⟨1, _⟩ => ⟨k.val, k.isLt⟩

/-- The whole product, index by index. -/
def prod (x : S100000x128.Idx → EReal) (w : S128x16.Idx → EReal) : S100000x16.Idx → EReal :=
  fun i => ∑ k : Fin 128, x (xIdx (i 0) k) * w (wIdx k (i 1))

/-! ## The body's stored value at an index -/

theorem lhs_0 (j : S4000x16.Idx) (q : dot_S4000x128_S128x16_S4000x16_1_0_0_1_n_n.contr.Idx) :
    (dot_S4000x128_S128x16_S4000x16_1_0_0_1_n_n.lhsIdx j q 0).val = (j 0).val := by
  unfold DotDims.lhsIdx
  rw [dif_neg (show ¬(0 : Fin S4000x128.rank) ∈ dot_S4000x128_S128x16_S4000x16_1_0_0_1_n_n.lhsBatch by decide), dif_pos (show (0 : Fin S4000x128.rank) ∈ dot_S4000x128_S128x16_S4000x16_1_0_0_1_n_n.lhsNonContracting by decide)]
  rfl
theorem lhs_1 (j : S4000x16.Idx) (q : dot_S4000x128_S128x16_S4000x16_1_0_0_1_n_n.contr.Idx) :
    (dot_S4000x128_S128x16_S4000x16_1_0_0_1_n_n.lhsIdx j q 1).val = (q ⟨0, by decide⟩).val :=
  dot_S4000x128_S128x16_S4000x16_1_0_0_1_n_n.lhsIdx_val_of_single rfl j q
theorem rhs_0 (j : S4000x16.Idx) (q : dot_S4000x128_S128x16_S4000x16_1_0_0_1_n_n.contr.Idx) :
    (dot_S4000x128_S128x16_S4000x16_1_0_0_1_n_n.rhsIdx j q 0).val = (q ⟨0, by decide⟩).val :=
  dot_S4000x128_S128x16_S4000x16_1_0_0_1_n_n.rhsIdx_val_of_single rfl j q
theorem rhs_1 (j : S4000x16.Idx) (q : dot_S4000x128_S128x16_S4000x16_1_0_0_1_n_n.contr.Idx) :
    (dot_S4000x128_S128x16_S4000x16_1_0_0_1_n_n.rhsIdx j q 1).val = (j 1).val := by
  unfold DotDims.rhsIdx
  rw [dif_neg (show ¬(1 : Fin S128x16.rank) ∈ dot_S4000x128_S128x16_S4000x16_1_0_0_1_n_n.rhsBatch by decide), dif_pos (show (1 : Fin S128x16.rank) ∈ dot_S4000x128_S128x16_S4000x16_1_0_0_1_n_n.rhsNonContracting by decide)]
  rfl

/-- Entry (p, q) of the stored block is the inner product of row p of the feature block with column q of the weights:
    the roundings are the identity on the extended reals and the accumulator starts at zero. -/
theorem stored_apply (x0 : Vec Ideal S4000x128 .f32) (x1 : Vec Ideal S128x16 .f32) (j : S4000x16.Idx) :
    k0_pay1 (F := Ideal) x0 x1 j = ∑ k : Fin 128, x0 (xbIdx (j 0) k) * x1 (wIdx k (j 1)) := by
  show FloatOps.matmul (F := Ideal) (φ₁ := .bf16) (φ₂ := .bf16) dot_S4000x128_S128x16_S4000x16_1_0_0_1_n_n none x0 x1 (constant S4000x16 .f32 0x00000000#32) j = _
  rw [Ideal.matmul_constant_zero_apply, ← Equiv.sum_comp (ValueIdx.contrEquiv1 dot_S4000x128_S128x16_S4000x16_1_0_0_1_n_n 128 rfl rfl).symm]
  refine Finset.sum_congr rfl fun k _ => ?_
  have hk := ValueIdx.contrEquiv1_symm_val dot_S4000x128_S128x16_S4000x16_1_0_0_1_n_n 128 rfl rfl k
  have el : dot_S4000x128_S128x16_S4000x16_1_0_0_1_n_n.lhsIdx j ((ValueIdx.contrEquiv1 dot_S4000x128_S128x16_S4000x16_1_0_0_1_n_n 128 rfl rfl).symm k) = xbIdx (j 0) k := funext fun a => Fin.ext (by
    match a with
    | ⟨0, _⟩ => exact lhs_0 _ _
    | ⟨1, _⟩ => exact (lhs_1 _ _).trans hk)
  have er : dot_S4000x128_S128x16_S4000x16_1_0_0_1_n_n.rhsIdx j ((ValueIdx.contrEquiv1 dot_S4000x128_S128x16_S4000x16_1_0_0_1_n_n 128 rfl rfl).symm k) = wIdx k (j 1) := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the output window are both at block row t, the weights at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x16) hz]
  obtain ⟨e0, e1, e2, e3, e4, e5⟩ := idx_facts t
  funext j
  show k0_pay1 (F := Ideal) (iblk0 V c 0 t) (iblk0 V c 1 t) j = prod (V c main_arg0) (V c main_arg2) (((cfg0.win 2).blk t).view.emb j)
  refine (stored_apply (iblk0 V c 0 t) (iblk0 V c 1 t) j).trans ?_
  unfold prod
  refine Finset.sum_congr rfl fun k _ => ?_
  have hj0 : (j 0).val < 4000 := (j 0).isLt
  have hj1 : (j 1).val < 16 := (j 1).isLt
  have hx : iblk0 V c 0 t (xbIdx (j 0) k) = V c main_arg0 (xIdx ((((cfg0.win 2).blk t).view.emb j) 0) k) := by
    show V c main_arg0 (((cfg0.win 0).blk t).view.emb (xbIdx (j 0) k)) = _
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  have hw : iblk0 V c 1 t (wIdx k (j 1)) = V c main_arg2 (wIdx k ((((cfg0.win 2).blk t).view.emb j) 1)) := by
    show V c main_arg2 (((cfg0.win 1).blk t).view.emb (wIdx k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [hx, hw]

/-- An index of the output array is in point t's block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v30).slice (win0_2.rect t)).set ↔ _
  rw [View.set_slice_whole, Rect.mem_set_unit]
  exact Iff.rfl

/-- Row r of the output lies in the block of point r / 4000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  let t : Fin cfg0.N := ⟨(i 0).val / 4000, by rw [hN]; omega⟩
  obtain ⟨e0, e1, e2, e3, e4, e5⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- After the region the output array holds the whole product of the feature array and the weight matrix it found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) (cover)

end Cert.KernelIdeal.Dense1

end
-- ==== Proof.Dense2.lean ====
/-
  The second pallas_call: bias, clamp at zero and the second weight matrix, fused, 4000 rows of nodes at a grid point.

  At a grid point t the body loads rows 4000·t … 4000·t + 3999 of the aggregated first-layer features (a [4000, 16]
  block), the [1, 16] bias row and the whole [16, 4] weight matrix; it adds the bias to every row, takes the maximum
  with zero, multiplies by the weights into a zero accumulator and stores the [4000, 4] product. Over the extended reals
  the roundings to the narrower float format are the identity, so entry (p, q) of the stored block is
      Σ_k max (a(4000·t + p, k) + b(0, k), 0) · w(k, q),
  entry (4000·t + p, q) of the whole array `hidden a b w`. The 25 output blocks tile the [100000, 4] array.
-/
import proofs.«402008_j45853070852446_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem
open Idealize.ShloMosaic.Pipeline (Dat)

/-- Row `r`, column `k` of the aggregated features. -/
abbrev aIdx (r : Fin 100000) (k : Fin 16) : S100000x16.Idx := fun a => match a with
  | ⟨0, _⟩ => ⟨r.val, r.isLt⟩
  | ⟨1, _⟩ => ⟨k.val, k.isLt⟩
/-- Row `p`, column `k` of a block of them. -/
abbrev abIdx (p : Fin 4000) (k : Fin 16) : S4000x16.Idx := fun a => match a with
  | ⟨0, _⟩ => ⟨p.val, p.isLt⟩
  | ⟨1, _⟩ => ⟨k.val, k.isLt⟩
/-- Column `k` of the bias row. -/
abbrev bIdx (k : Fin 16) : S1x16.Idx := fun a => match a with
  | ⟨0, _⟩ => ⟨0, Nat.one_pos⟩
  | ⟨1, _⟩ => ⟨k.val, k.isLt⟩
/-- Row `k`, column `q` of the weight matrix. -/
abbrev wIdx (k : Fin 16) (q : Fin 4) : S16x4.Idx := fun a => match a with
  | ⟨0, _⟩ => ⟨k.val, k.isLt⟩
  | ⟨1, _⟩ => ⟨q.val, q.isLt⟩

/-- The hidden layer times the second weights, index by index. -/
def hidden (a : S100000x16.Idx → EReal) (b : S1x16.Idx → EReal) (w : S16x4.Idx → EReal) : S100000x4.Idx → EReal :=
  fun i => ∑ k : Fin 16, max (a (aIdx (i 0) k) + b (bIdx k)) (FloatOps.ofBits (F := Ideal) .f32 0x00000000#32) * w (wIdx k (i 1))

/-! ## The body's stored value at an index -/

theorem lhs_0 (j : S4000x4.Idx) (q : dot_S4000x16_S16x4_S4000x4_1_0_0_1_n_n.contr.Idx) : (dot_S4000x16_S16x4_S4000x4_1_0_0_1_n_n.lhsIdx j q 0).val = (j 0).val := by
  unfold DotDims.lhsIdx
  rw [dif_neg (show ¬(0 : Fin S4000x16.rank) ∈ dot_S4000x16_S16x4_S4000x4_1_0_0_1_n_n.lhsBatch by decide), dif_pos (show (0 : Fin S4000x16.rank) ∈ dot_S4000x16_S16x4_S4000x4_1_0_0_1_n_n.lhsNonContracting by decide)]
  rfl
theorem lhs_1 (j : S4000x4.Idx) (q : dot_S4000x16_S16x4_S4000x4_1_0_0_1_n_n.contr.Idx) : (dot_S4000x16_S16x4_S4000x4_1_0_0_1_n_n.lhsIdx j q 1).val = (q ⟨0, by decide⟩).val :=
  dot_S4000x16_S16x4_S4000x4_1_0_0_1_n_n.lhsIdx_val_of_single rfl j q
theorem rhs_0 (j : S4000x4.Idx) (q : dot_S4000x16_S16x4_S4000x4_1_0_0_1_n_n.contr.Idx) : (dot_S4000x16_S16x4_S4000x4_1_0_0_1_n_n.rhsIdx j q 0).val = (q ⟨0, by decide⟩).val :=
  dot_S4000x16_S16x4_S4000x4_1_0_0_1_n_n.rhsIdx_val_of_single rfl j q
theorem rhs_1 (j : S4000x4.Idx) (q : dot_S4000x16_S16x4_S4000x4_1_0_0_1_n_n.contr.Idx) : (dot_S4000x16_S16x4_S4000x4_1_0_0_1_n_n.rhsIdx j q 1).val = (j 1).val := by
  unfold DotDims.rhsIdx
  rw [dif_neg (show ¬(1 : Fin S16x4.rank) ∈ dot_S4000x16_S16x4_S4000x4_1_0_0_1_n_n.rhsBatch by decide), dif_pos (show (1 : Fin S16x4.rank) ∈ dot_S4000x16_S16x4_S4000x4_1_0_0_1_n_n.rhsNonContracting by decide)]
  rfl

/-- The bias row spread down a block, read at (p, k), is the bias at column k. -/
theorem bias_apply (v2 : S1x16.Idx → EReal) (p : Fin 4000) (k : Fin 16) :
    broadcastTo S4000x16 v2 broadcasts_S1x16_S4000x16 (abIdx p k) = v2 (bIdx k) :=
  broadcastTo_apply v2 broadcasts_S1x16_S4000x16 (abIdx p k) (bIdx k) (fun a => match a with
    | ⟨0, _⟩ => by show (0 : Nat) = if (1 : Nat) = 1 then 0 else _; rw [if_pos rfl]
    | ⟨1, _⟩ => by show k.val = if (16 : Nat) = 1 then 0 else k.val; rw [if_neg (by decide)])

/-- Entry (p, q) of the stored block: the clamped, biased row p of the block against column q of the weights. -/
theorem stored_apply (v0 : Vec Ideal S4000x16 .f32) (v2 : Vec Ideal S1x16 .f32) (v9 : Vec Ideal S16x4 .f32) (j : S4000x4.Idx) :
    k1_pay1 (F := Ideal) v0 v2 v9 j
      = ∑ k : Fin 16, max (v0 (abIdx (j 0) k) + v2 (bIdx k)) (FloatOps.ofBits (F := Ideal) .f32 0x00000000#32) * v9 (wIdx k (j 1)) := by
  show FloatOps.matmul (F := Ideal) (φ₁ := .bf16) (φ₂ := .bf16) dot_S4000x16_S16x4_S4000x4_1_0_0_1_n_n none
      (truncf (F := Ideal) .bf16 (maximumf (F := Ideal) (addf (shapeCast S4000x16 v0 shapeCasts_S4000x16_S4000x16)
        (broadcastTo S4000x16 (shapeCast S1x16 v2 shapeCasts_S1x16_S1x16) broadcasts_S1x16_S4000x16))
        (broadcast S4000x16 (Scalar.ofBits (F := Ideal) .f32 0x00000000#32))) bitsLt_bf16_f32)
      (truncf (F := Ideal) .bf16 v9 bitsLt_bf16_f32) (constant S4000x4 .f32 0x00000000#32) j = _
  rw [Ideal.matmul_constant_zero_apply, ← Equiv.sum_comp (ValueIdx.contrEquiv1 dot_S4000x16_S16x4_S4000x4_1_0_0_1_n_n 16 rfl rfl).symm]
  refine Finset.sum_congr rfl fun k _ => ?_
  have hk := ValueIdx.contrEquiv1_symm_val dot_S4000x16_S16x4_S4000x4_1_0_0_1_n_n 16 rfl rfl k
  have el : dot_S4000x16_S16x4_S4000x4_1_0_0_1_n_n.lhsIdx j ((ValueIdx.contrEquiv1 dot_S4000x16_S16x4_S4000x4_1_0_0_1_n_n 16 rfl rfl).symm k) = abIdx (j 0) k := funext fun a => Fin.ext (by
    match a with
    | ⟨0, _⟩ => exact lhs_0 _ _
    | ⟨1, _⟩ => exact (lhs_1 _ _).trans hk)
  have er : dot_S4000x16_S16x4_S4000x4_1_0_0_1_n_n.rhsIdx j ((ValueIdx.contrEquiv1 dot_S4000x16_S16x4_S4000x4_1_0_0_1_n_n 16 rfl rfl).symm k) = wIdx k (j 1) := funext fun a => Fin.ext (by
    match a with
    | ⟨0, _⟩ => exact (rhs_0 _ _).trans hk
    | ⟨1, _⟩ => exact rhs_1 _ _)
  rw [el, er]
  show max (shapeCast S4000x16 v0 shapeCasts_S4000x16_S4000x16 (abIdx (j 0) k)
      + broadcastTo S4000x16 (shapeCast S1x16 v2 shapeCasts_S1x16_S1x16) broadcasts_S1x16_S4000x16 (abIdx (j 0) k))
      (FloatOps.ofBits (F := Ideal) .f32 0x00000000#32) * v9 (wIdx k (j 1)) = _
  rw [shapeCast_self, shapeCast_self]
  exact congrArg (fun s => max (v0 (abIdx (j 0) k) + s) (FloatOps.ofBits (F := Ideal) .f32 0x00000000#32) * v9 (wIdx k (j 1))) (bias_apply v2 (j 0) k)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the output window are at block row t, the bias and the weights at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `hidden` of the arrays the region finds. -/
theorem flushed_eq (c : Dev nD) (t : Fin cfg1.N) :
    (dat1 V c).flushed 3 t = ((cfg1.win 3).blk t).view.read (Elt Ideal) (hidden (V c main_v44) (V c main_v45) (V c main_arg4)) := by
  show (cfg1.win 3).cut (grid1.coords t) ((dat1 V c).after 3 t) = _
  rw [after1_3]
  unfold out1_3
  rw [View.canon_unit_zero hz]
  simp only [View.ld_unit_zero (S := S4000x16) hz, View.ld_unit_zero (S := S1x16) hz, View.ld_unit_zero (S := S16x4) hz]
  obtain ⟨e0, e1, e2, e3, e4, e5, e6, e7⟩ := idx_facts t
  funext j
  show k1_pay1 (F := Ideal) (iblk1 V c 0 t) (iblk1 V c 1 t) (iblk1 V c 2 t) j
    = hidden (V c main_v44) (V c main_v45) (V c main_arg4) (((cfg1.win 3).blk t).view.emb j)
  refine (stored_apply (iblk1 V c 0 t) (iblk1 V c 1 t) (iblk1 V c 2 t) j).trans ?_
  unfold hidden
  refine Finset.sum_congr rfl fun k _ => ?_
  have hj0 : (j 0).val < 4000 := (j 0).isLt
  have hj1 : (j 1).val < 4 := (j 1).isLt
  have ha : iblk1 V c 0 t (abIdx (j 0) k) = V c main_v44 (aIdx ((((cfg1.win 3).blk t).view.emb j) 0) k) := by
    show V c main_v44 (((cfg1.win 0).blk t).view.emb (abIdx (j 0) k)) = _
    refine congrArg (V c main_v44) (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 16 + 1 * k.val = k.val; omega
  have hb : iblk1 V c 1 t (bIdx k) = V c main_v45 (bIdx k) := by
    show V c main_v45 (((cfg1.win 1).blk t).view.emb (bIdx k)) = _
    refine congrArg (V c main_v45) (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  have hw : iblk1 V c 2 t (wIdx k (j 1)) = V c main_arg4 (wIdx k ((((cfg1.win 3).blk t).view.emb j) 1)) := by
    show V c main_arg4 (((cfg1.win 2).blk t).view.emb (wIdx k (j 1))) = _
    refine congrArg (V c main_arg4) (funext fun a => Fin.ext ?_)
    match a with
    | ⟨0, _⟩ => show win1_2.index t (0 : Fin 2) * 16 + 1 * k.val = k.val; omega
    | ⟨1, _⟩ => show win1_2.index t (1 : Fin 2) * 4 + 1 * (j 1).val = win1_3.index t (1 : Fin 2) * 4 + 1 * (j 1).val; omega
  rw [ha, hb, hw]

/-- An index of the output array is in point t's block iff each coordinate is in the block's range on its axis. -/
theorem mem_blk (t : Fin cfg1.N) (i : S100000x4.Idx) :
    i ∈ ((cfg1.win 3).blk t).view.set ↔ ∀ a : Fin 2, win1_3.index t a * S4000x4.size a ≤ (i a).val ∧ (i a).val < win1_3.index t a * S4000x4.size a + S4000x4.size a := by
  show i ∈ ((View.whole main_v46).slice (win1_3.rect t)).set ↔ _
  rw [View.set_slice_whole, Rect.mem_set_unit]
  exact Iff.rfl

/-- Row r of the output lies in the block of point r / 4000. -/
theorem cover (i : S100000x4.Idx) : ∃ t : Fin cfg1.N, (cfg1.win 3).flush t = true ∧ i ∈ ((cfg1.win 3).blk t).view.set := by
  have hi0 : (i 0).val < 100000 := (i 0).isLt
  have hi1 : (i 1).val < 4 := (i 1).isLt
  have hN : cfg1.N = 25 := N_1
  let t : Fin cfg1.N := ⟨(i 0).val / 4000, by rw [hN]; omega⟩
  obtain ⟨e0, e1, e2, e3, e4, e5, e6, e7⟩ := idx_facts t
  have ht : t.val = (i 0).val / 4000 := rfl
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 4 ≤ (i 1).val ∧ (i 1).val < win1_3.index t (1 : Fin 2) * 4 + 4; omega

/-- After the region the output array holds `hidden` of the aggregated features, the bias row and the weights it found. -/
theorem final (c : Dev nD) : (dat1 V c).arrAt 3 cfg1.N = hidden (V c main_v44) (V c main_v45) (V c main_arg4) :=
  (dat1 V c).arrAt_eq_of_cover 3 (hidden (V c main_v44) (V c main_v45) (V c main_arg4)) (fun t _ => flushed_eq V c t) (cover)

end Cert.KernelIdeal.Dense2

end
-- ==== Proof.LogSm.lean ====
/-
  The third pallas_call: the second bias and the log-softmax of each row, 4000 rows of nodes at a grid point.

  At a grid point t the body loads rows 4000·t … 4000·t + 3999 of the aggregated second-layer features (a [4000, 4]
  block) and the [1, 4] bias row. With z(p, q) = a(p, q) + b(0, q) it takes each row's maximum M(p) (a fold of max from
  −∞ over the four columns), subtracts it, exponentiates, sums each row, takes the logarithm and subtracts that:
      out(p, q) = (z(p, q) − M(p)) − log Σ_j exp (z(p, j) − M(p)).
  Every step is row by row, so entry (p, q) of the stored block is the log-softmax of row 4000·t + p of the whole
  biased array at column q. The 25 output blocks tile the [100000, 4] array.
-/
import proofs.«402008_j45853070852446_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.LogSm

open Cert.KernelIdeal Cert.KernelIdeal.Gen
open Idealize.ShloMosaic Idealize.ShloMosaic.TcCoe Idealize.SL.Sem
open Idealize.ShloMosaic.Pipeline (Dat)

/-- Row `r`, column `q` of the aggregated features. -/
abbrev aIdx (r : Fin 100000) (q : Fin 4) : S100000x4.Idx := fun a => match a with
  | ⟨0, _⟩ => ⟨r.val, r.isLt⟩
  | ⟨1, _⟩ => ⟨q.val, q.isLt⟩
/-- Row `p`, column `q` of a block. -/
abbrev abIdx (p : Fin 4000) (q : Fin 4) : S4000x4.Idx := fun a => match a with
  | ⟨0, _⟩ => ⟨p.val, p.isLt⟩
  | ⟨1, _⟩ => ⟨q.val, q.isLt⟩
/-- Column `q` of the bias row. -/
abbrev bIdx (q : Fin 4) : S1x4.Idx := fun a => match a with
  | ⟨0, _⟩ => ⟨0, Nat.one_pos⟩
  | ⟨1, _⟩ => ⟨q.val, q.isLt⟩
/-- Position `p` of a per-row vector. -/
abbrev pIdx (p : Fin 4000) : S4000.Idx := fun a => match a with
  | ⟨0, _⟩ => ⟨p.val, p.isLt⟩
/-- Position `p` of a per-row column. -/
abbrev colIdx (p : Fin 4000) : S4000x1.Idx := fun a => match a with
  | ⟨0, _⟩ => ⟨p.val, p.isLt⟩
  | ⟨1, _⟩ => ⟨0, Nat.one_pos⟩

/-- A row's maximum, folded from −∞. -/
def rowMax (z : Fin 4 → EReal) : EReal :=
  (Finset.univ : Finset (Fin 4)).fold max (FloatOps.ofBits (F := Ideal) .f32 0xFF800000#32) z

/-- The log-softmax of a row of four, at column q. -/
def rowLsm (z : Fin 4 → EReal) (q : Fin 4) : EReal :=
  (z q - rowMax z) - Ideal.log (∑ j : Fin 4, Ideal.exp (z j - rowMax z))

/-- The biased array's rows, each through the log-softmax, index by index. -/
def rows (a : S100000x4.Idx → EReal) (b : S1x4.Idx → EReal) : S100000x4.Idx → EReal :=
  fun i => rowLsm (fun q => a (aIdx (i 0) q) + b (bIdx q)) (i 1)

/-! ## The body's operations read at an index -/

/-- Column k inserted into row position p is entry (p, k). -/
theorem lift_eq (p : Fin 4000) (k : Fin 4) : reduces_S4000x4_S4000.lift (pIdx p) k = abIdx p k :=
  funext fun a => Fin.ext (by match a with | ⟨0, _⟩ => rfl | ⟨1, _⟩ => rfl)

/-- The maximum over the columns, at row p. -/
theorem rowmax_apply (z : FVec Ideal S4000x4 .f32) (p : Fin 4000) (hφ : FKind.Formats .f32)
    (hmax : (0xFF800000#32 : BitVec 32) = FKind.maximumf.neutral .f32 hφ) :
    multiReduction .maximumf [1] S4000 z 0xFF800000#32 reduces_S4000x4_S4000 hφ hmax (pIdx p) = rowMax (fun k => z (abIdx p k)) :=
  (Ideal.multiReduction_maximumf_single z _ reduces_S4000x4_S4000 hφ hmax (pIdx p)).trans
    (Finset.fold_congr fun k _ => congrArg z (lift_eq p k))

/-- The sum over the columns, at row p. -/
theorem rowsum_apply (y : FVec Ideal S4000x4 .f32) (p : Fin 4000) (hφ : FKind.Formats .f32)
    (hadd : (0x00000000#32 : BitVec 32) = FKind.add.neutral .f32 hφ) :
    multiReduction .add [1] S4000 y 0x00000000#32 reduces_S4000x4_S4000 hφ hadd (pIdx p) = ∑ k : Fin 4, y (abIdx p k) :=
  (Ideal.multiReduction_add_single y _ reduces_S4000x4_S4000 hφ hadd (pIdx p)).trans
    (Finset.sum_congr rfl fun k _ => congrArg y (lift_eq p k))

/-- A per-row vector laid out as a column reads, at (p, 0), the vector at p. -/
theorem col_apply (v : S4000.Idx → EReal) (p : Fin 4000) : shapeCast S4000x1 v shapeCasts_S4000_S4000x1 (colIdx p) = v (pIdx p) :=
  shapeCast_apply v shapeCasts_S4000_S4000x1 (colIdx p) (pIdx p) (by
    rw [Shape.rowMajor_val_two, Shape.rowMajor_val_one]
    show p.val = p.val * 1 + 0
    omega)

/-- A column spread across the four columns reads, at (p, q), the column at p. -/
theorem spread_apply (v : S4000x1.Idx → EReal) (p : Fin 4000) (q : Fin 4) :
    broadcastTo S4000x4 v broadcasts_S4000x1_S4000x4 (abIdx p q) = v (colIdx p) :=
  broadcastTo_apply v broadcasts_S4000x1_S4000x4 (abIdx p q) (colIdx p) (fun a => match a with
    | ⟨0, _⟩ => by show p.val = if (4000 : Nat) = 1 then 0 else p.val; rw [if_neg (by decide)]
    | ⟨1, _⟩ => by show (0 : Nat) = if (1 : Nat) = 1 then 0 else _; rw [if_pos rfl])

/-- The bias row spread down a block reads, at (p, q), the bias at column q. -/
theorem bias_apply (v2 : S1x4.Idx → EReal) (p : Fin 4000) (q : Fin 4) :
    broadcastTo S4000x4 v2 broadcasts_S1x4_S4000x4 (abIdx p q) = v2 (bIdx q) :=
  broadcastTo_apply v2 broadcasts_S1x4_S4000x4 (abIdx p q) (bIdx q) (fun a => match a with
    | ⟨0, _⟩ => by show (0 : Nat) = if (1 : Nat) = 1 then 0 else _; rw [if_pos rfl]
    | ⟨1, _⟩ => by show q.val = if (4 : Nat) = 1 then 0 else q.val; rw [if_neg (by decide)])

/-- The row-wise steps on any block z: entry (p, q) of the body's result is the log-softmax of row p of z at q. -/
theorem steps_apply (z : FVec Ideal S4000x4 .f32) (p : Fin 4000) (q : Fin 4) (hφ : FKind.Formats .f32)
    (hmax : (0xFF800000#32 : BitVec 32) = FKind.maximumf.neutral .f32 hφ) (hadd : (0x00000000#32 : BitVec 32) = FKind.add.neutral .f32 hφ) :
    subf (subf z (broadcastTo S4000x4 (shapeCast S4000x1 (multiReduction .maximumf [1] S4000 z 0xFF800000#32 reduces_S4000x4_S4000 hφ hmax) shapeCasts_S4000_S4000x1) broadcasts_S4000x1_S4000x4))
      (broadcastTo S4000x4 (log (shapeCast S4000x1 (multiReduction .add [1] S4000
        (exp (subf z (broadcastTo S4000x4 (shapeCast S4000x1 (multiReduction .maximumf [1] S4000 z 0xFF800000#32 reduces_S4000x4_S4000 hφ hmax) shapeCasts_S4000_S4000x1) broadcasts_S4000x1_S4000x4)))
        0x00000000#32 reduces_S4000x4_S4000 hφ hadd) shapeCasts_S4000_S4000x1)) broadcasts_S4000x1_S4000x4) (abIdx p q)
      = rowLsm (fun k => z (abIdx p k)) q := by
  have hM : ∀ k : Fin 4, broadcastTo S4000x4 (shapeCast S4000x1 (multiReduction .maximumf [1] S4000 z 0xFF800000#32 reduces_S4000x4_S4000 hφ hmax) shapeCasts_S4000_S4000x1) broadcasts_S4000x1_S4000x4 (abIdx p k)
      = rowMax (fun k => z (abIdx p k)) := fun k =>
    (spread_apply _ p k).trans ((col_apply _ p).trans (rowmax_apply z p hφ hmax))
  show (z (abIdx p q) - broadcastTo S4000x4 (shapeCast S4000x1 (multiReduction .maximumf [1] S4000 z 0xFF800000#32 reduces_S4000x4_S4000 hφ hmax) shapeCasts_S4000_S4000x1) broadcasts_S4000x1_S4000x4 (abIdx p q))
      - broadcastTo S4000x4 (log (shapeCast S4000x1 (multiReduction .add [1] S4000
        (exp (subf z (broadcastTo S4000x4 (shapeCast S4000x1 (multiReduction .maximumf [1] S4000 z 0xFF800000#32 reduces_S4000x4_S4000 hφ hmax) shapeCasts_S4000_S4000x1) broadcasts_S4000x1_S4000x4)))
        0x00000000#32 reduces_S4000x4_S4000 hφ hadd) shapeCasts_S4000_S4000x1)) broadcasts_S4000x1_S4000x4 (abIdx p q) = _
  rw [hM q, spread_apply]
  show _ - Ideal.log (shapeCast S4000x1 (multiReduction .add [1] S4000
        (exp (subf z (broadcastTo S4000x4 (shapeCast S4000x1 (multiReduction .maximumf [1] S4000 z 0xFF800000#32 reduces_S4000x4_S4000 hφ hmax) shapeCasts_S4000_S4000x1) broadcasts_S4000x1_S4000x4)))
        0x00000000#32 reduces_S4000x4_S4000 hφ hadd) shapeCasts_S4000_S4000x1 (colIdx p)) = _
  rw [col_apply, rowsum_apply]
  unfold rowLsm
  refine congrArg (fun s => (z (abIdx p q) - rowMax fun k => z (abIdx p k)) - Ideal.log s) (Finset.sum_congr rfl fun k _ => ?_)
  show Ideal.exp (z (abIdx p k) - broadcastTo S4000x4 (shapeCast S4000x1 (multiReduction .maximumf [1] S4000 z 0xFF800000#32 reduces_S4000x4_S4000 hφ hmax) shapeCasts_S4000_S4000x1) broadcasts_S4000x1_S4000x4 (abIdx p k)) = _
  rw [hM k]

/-- Entry (p, q) of the stored block: the log-softmax of the biased row p of the block, at q. -/
theorem stored_apply (v0 : Vec Ideal S4000x4 .f32) (v2 : Vec Ideal S1x4 .f32) (p : Fin 4000) (q : Fin 4) :
    k2_pay1 (F := Ideal) v0 v2 (abIdx p q) = rowLsm (fun k => v0 (abIdx p k) + v2 (bIdx k)) q := by
  refine (steps_apply (addf (shapeCast S4000x4 v0 shapeCasts_S4000x4_S4000x4)
    (broadcastTo S4000x4 (shapeCast S1x4 v2 shapeCasts_S1x4_S1x4) broadcasts_S1x4_S4000x4)) p q (.inl rfl) rfl rfl).trans ?_
  refine congrArg (rowLsm · q) (funext fun k => ?_)
  show shapeCast S4000x4 v0 shapeCasts_S4000x4_S4000x4 (abIdx p k)
    + broadcastTo S4000x4 (shapeCast S1x4 v2 shapeCasts_S1x4_S1x4) broadcasts_S1x4_S4000x4 (abIdx p k) = _
  rw [shapeCast_self, shapeCast_self, bias_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the output window are at block row t, the bias at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `rows` of the arrays the region finds. -/
theorem flushed_eq (c : Dev nD) (t : Fin cfg2.N) :
    (dat2 V c).flushed 2 t = ((cfg2.win 2).blk t).view.read (Elt Ideal) (rows (V c main_v60) (V c main_v61)) := by
  show (cfg2.win 2).cut (grid2.coords t) ((dat2 V c).after 2 t) = _
  rw [after2_2]
  unfold out2_2
  rw [View.canon_unit_zero hz]
  simp only [View.ld_unit_zero (S := S4000x4) hz, View.ld_unit_zero (S := S1x4) hz]
  obtain ⟨e0, e1, e2, e3, e4, e5⟩ := idx_facts t
  funext j
  show k2_pay1 (F := Ideal) (iblk2 V c 0 t) (iblk2 V c 1 t) j = rows (V c main_v60) (V c main_v61) (((cfg2.win 2).blk t).view.emb j)
  have hj : j = abIdx (j 0) (j 1) := funext fun a => by match a with | ⟨0, _⟩ => rfl | ⟨1, _⟩ => rfl
  have hj0 : (j 0).val < 4000 := (j 0).isLt
  have hj1 : (j 1).val < 4 := (j 1).isLt
  refine ((congrArg (k2_pay1 (F := Ideal) (iblk2 V c 0 t) (iblk2 V c 1 t)) hj).trans (stored_apply (iblk2 V c 0 t) (iblk2 V c 1 t) (j 0) (j 1))).trans ?_
  unfold rows
  have hq : (j 1) = (((cfg2.win 2).blk t).view.emb j) 1 := Fin.ext (by
    show (j 1).val = win2_2.index t (1 : Fin 2) * 4 + 1 * (j 1).val; omega)
  refine (congrArg (rowLsm _) hq).trans (congrArg (rowLsm · _) (funext fun k => ?_))
  have ha : iblk2 V c 0 t (abIdx (j 0) k) = V c main_v60 (aIdx ((((cfg2.win 2).blk t).view.emb j) 0) k) := by
    show V c main_v60 (((cfg2.win 0).blk t).view.emb (abIdx (j 0) k)) = _
    refine congrArg (V c main_v60) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 4 + 1 * k.val = k.val; omega
  have hb : iblk2 V c 1 t (bIdx k) = V c main_v61 (bIdx k) := by
    show V c main_v61 (((cfg2.win 1).blk t).view.emb (bIdx k)) = _
    refine congrArg (V c main_v61) (funext fun a => Fin.ext ?_)
    match a with
    | ⟨0, _⟩ => show win2_1.index t (0 : Fin 2) * 1 + 1 * 0 = 0; omega
    | ⟨1, _⟩ => show win2_1.index t (1 : Fin 2) * 4 + 1 * k.val = k.val; omega
  rw [ha, hb]

/-- An index of the output array is in point t's block iff each coordinate is in the block's range on its axis. -/
theorem mem_blk (t : Fin cfg2.N) (i : S100000x4.Idx) :
    i ∈ ((cfg2.win 2).blk t).view.set ↔ ∀ a : Fin 2, win2_2.index t a * S4000x4.size a ≤ (i a).val ∧ (i a).val < win2_2.index t a * S4000x4.size a + S4000x4.size a := by
  show i ∈ ((View.whole main_v62).slice (win2_2.rect t)).set ↔ _
  rw [View.set_slice_whole, Rect.mem_set_unit]
  exact Iff.rfl

/-- Row r of the output lies in the block of point r / 4000. -/
theorem cover (i : S100000x4.Idx) : ∃ t : Fin cfg2.N, (cfg2.win 2).flush t = true ∧ i ∈ ((cfg2.win 2).blk t).view.set := by
  have hi0 : (i 0).val < 100000 := (i 0).isLt
  have hi1 : (i 1).val < 4 := (i 1).isLt
  have hN : cfg2.N = 25 := N_2
  let t : Fin cfg2.N := ⟨(i 0).val / 4000, by rw [hN]; omega⟩
  obtain ⟨e0, e1, e2, e3, e4, e5⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 4 ≤ (i 1).val ∧ (i 1).val < win2_2.index t (1 : Fin 2) * 4 + 4; omega

/-- After the region the output array holds the row-wise log-softmax of the biased features it found. -/
theorem final (c : Dev nD) : (dat2 V c).arrAt 2 cfg2.N = rows (V c main_v60) (V c main_v61) :=
  (dat2 V c).arrAt_eq_of_cover 2 (rows (V c main_v60) (V c main_v61)) (fun t _ => flushed_eq V c t) (cover)

end Cert.KernelIdeal.LogSm

end
-- ==== Proof.Bridge.lean ====
/-
  The three pallas_calls against the reference's stages.

  Each region of the kernel leaves in its output array one whole-array function of the arrays it finds (`Dense1.prod`,
  `Dense2.hidden`, `LogSm.rows`). Here each is shown to be the reference's own stage at the same place:
    • the first product is the reference's `dot_general` of the features and the first weights — the same sum over the
      128 feature columns at every index;
    • `hidden` is the reference's second `dot_general` applied to its bias-add and clamp — the bias row the kernel holds
      as a [1, 16] array against the reference's [16] vector broadcast down the rows, the clamp `max · 0` on both sides;
    • `rows` is the reference's log-softmax — its row maximum is a fold of max from −∞ over the four columns (taken once
      more against −∞, which changes nothing: the fold is already above its starting value), its row sum starts from 0.
  No law beyond these readings is used: the two sides are the same arithmetic, index by index.
-/
import proofs.«402008_j45853070852446_3_alg».proof.Proof.RefRead
import proofs.«402008_j45853070852446_3_alg».proof.Proof.Dense1
import proofs.«402008_j45853070852446_3_alg».proof.Proof.Dense2
import proofs.«402008_j45853070852446_3_alg».proof.Proof.LogSm
import Idealize.ShloMosaic.PureOps.Reduce

set_option maxRecDepth 16384

noncomputable section

namespace Cert.Bridge

open Cert.ReferenceIdeal Cert.ReferenceIdeal.Gen Cert.ReferenceIdeal.ReadP Idealize.ShloMosaic Idealize.ShloMosaic.TcCoe

/-- Position `k` of the first bias vector. -/
abbrev b1Idx (k : Fin 16) : S16.Idx := fun a => match a with
  | ⟨0, _⟩ => ⟨k.val, k.isLt⟩
/-- Position `q` of the second bias vector. -/
abbrev b2Idx (q : Fin 4) : S4.Idx := fun a => match a with
  | ⟨0, _⟩ => ⟨q.val, q.isLt⟩
/-- Position `r` of a per-node vector. -/
abbrev rowIdx (r : Fin 100000) : S100000.Idx := fun a => match a with
  | ⟨0, _⟩ => ⟨r.val, r.isLt⟩

/-- The reference's first `dot_general` is the whole product the first region leaves. -/
theorem prod_eq (x0 : (⟨S100000x128, .f32⟩ : BufTy).Contents (Elt Ideal)) (x2 : (⟨S128x16, .f32⟩ : BufTy).Contents (Elt Ideal)) :
    val_main_v30 (F := Ideal) x0 x2 = Cert.KernelIdeal.Dense1.prod x0 x2 := by
  funext i
  rw [val_main_v30_apply]
  unfold Cert.KernelIdeal.Dense1.prod
  refine Finset.sum_congr rfl fun k _ => ?_
  have e1 : lidx_main_v30 i k = Cert.KernelIdeal.Dense1.xIdx (i 0) k := funext fun a => by match a with | ⟨0, _⟩ => rfl | ⟨1, _⟩ => rfl
  have e2 : ridx_main_v30 i k = Cert.KernelIdeal.Dense1.wIdx k (i 1) := funext fun a => by match a with | ⟨0, _⟩ => rfl | ⟨1, _⟩ => rfl
  rw [e1, e2]

/-- The reference's bias-add, clamp and second `dot_general` are `hidden` of the first aggregation, for any [1, 16]
    array `bb` holding the bias vector in its one row. -/
theorem hidden_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x4, .f32⟩ : BufTy).Contents (Elt Ideal))
    (bb : Cert.KernelIdeal.S1x16.Idx → EReal) (hbb : ∀ k : Fin 16, bb (Cert.KernelIdeal.Dense2.bIdx k) = x3 (b1Idx k)) :
    val_main_v71 (F := Ideal) x0 x1 x2 x3 x4 = Cert.KernelIdeal.Dense2.hidden (val_main_v43 (F := Ideal) x0 x1 x2) bb x4 := by
  funext i
  rw [val_main_v71_apply]
  unfold Cert.KernelIdeal.Dense2.hidden
  refine Finset.sum_congr rfl fun k _ => ?_
  rw [val_main_v47_apply, val_main_v46_apply, val_main_v45_apply, val_main_v44_apply, val_main_call1_v0_apply,
    val_main_call1_cst_apply, hbb k]
  have e3 : idx_main_v44 (idx_main_v45 (lidx_main_v71 i k)) = b1Idx k := funext fun a => by match a with | ⟨0, _⟩ => rfl
  have e1 : lidx_main_v71 i k = Cert.KernelIdeal.Dense2.aIdx (i 0) k := funext fun a => by match a with | ⟨0, _⟩ => rfl | ⟨1, _⟩ => rfl
  have e2 : ridx_main_v71 i k = Cert.KernelIdeal.Dense2.wIdx k (i 1) := funext fun a => by match a with | ⟨0, _⟩ => rfl | ⟨1, _⟩ => rfl
  rw [e3, e1, e2]
  rfl

/-- A fold of the float maximum over the extended reals is a fold of `max`. -/
theorem fold_max_eq (b : EReal) (f : Fin 4 → EReal) :
    (Finset.univ : Finset (Fin 4)).fold (FloatOps.maximumf (F := Ideal) (φ := .f32)) b f = (Finset.univ : Finset (Fin 4)).fold max b f := rfl

/-- The host's maximum over the four columns of any [100000, 4] array, at row r: the fold of max from −∞ over the
    row's entries. -/
theorem host_rowmax (Y : (⟨S100000x4, .f32⟩ : BufTy).Contents (Elt Ideal)) (r : Fin 100000) (hR : S100000x4.Reduces [1] S100000) :
    Host.reduce (FloatOps.maximumf (F := Ideal) (φ := .f32)) Y (val_main_call3_cst (F := Ideal)) reducesTo_S100000x4_S100000_d1 h_S_ (rowIdx r)
      = Cert.KernelIdeal.LogSm.rowMax (fun k => Y (Cert.KernelIdeal.LogSm.aIdx r k)) := by
  rw [Host.reduce_eq_fold_single (FloatOps.maximumf (F := Ideal) (φ := .f32)) Y _ reducesTo_S100000x4_S100000_d1 hR h_S_ (rowIdx r)]
  refine (Finset.fold_congr (g := fun k : Fin 4 => Y (Cert.KernelIdeal.LogSm.aIdx r k)) fun k _ => ?_).trans (fold_max_eq _ _)
  exact congrArg Y (funext fun a => Fin.ext (by match a with | ⟨0, _⟩ => rfl | ⟨1, _⟩ => rfl))

/-- The reference's second bias-add and log-softmax are `rows` of the second aggregation, for any [1, 4] array `bb`
    holding the bias vector in its one row. -/
theorem rows_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x4, .f32⟩ : BufTy).Contents (Elt Ideal)) (x5 : (⟨S4, .f32⟩ : BufTy).Contents (Elt Ideal))
    (bb : Cert.KernelIdeal.S1x4.Idx → EReal) (hbb : ∀ q : Fin 4, bb (Cert.KernelIdeal.LogSm.bIdx q) = x5 (b2Idx q)) :
    val_main_v88 (F := Ideal) x0 x1 x2 x3 x4 x5 = Cert.KernelIdeal.LogSm.rows (val_main_v84 (F := Ideal) x0 x1 x2 x3 x4) bb := by
  funext i
  have hi : i = Cert.KernelIdeal.LogSm.aIdx (i 0) (i 1) := funext fun a => by match a with | ⟨0, _⟩ => rfl | ⟨1, _⟩ => rfl
  -- the biased row of node `i 0`, named
  obtain ⟨Z, hzZ, hZ⟩ : ∃ Z : Fin 4 → EReal, (∀ q : Fin 4, val_main_v87 (F := Ideal) x0 x1 x2 x3 x4 x5 (Cert.KernelIdeal.LogSm.aIdx (i 0) q) = Z q)
      ∧ Z = fun q => val_main_v84 (F := Ideal) x0 x1 x2 x3 x4 (Cert.KernelIdeal.LogSm.aIdx (i 0) q) + bb (Cert.KernelIdeal.LogSm.bIdx q) :=
    ⟨_, fun q => by
      rw [val_main_v87_apply, val_main_v86_apply, val_main_v85_apply, hbb q]
      have e : idx_main_v85 (idx_main_v86 (Cert.KernelIdeal.LogSm.aIdx (i 0) q)) = b2Idx q := funext fun a => by match a with | ⟨0, _⟩ => rfl
      rw [e]
      rfl, rfl⟩
  -- its maximum
  have hM : val_main_call3_v2 (F := Ideal) x0 x1 x2 x3 x4 x5 (rowIdx (i 0)) = Cert.KernelIdeal.LogSm.rowMax Z := by
    rw [val_main_call3_v2_apply, val_main_call3_v1_apply, val_main_call3_cst_0_apply]
    unfold val_main_call3_v0
    generalize val_main_v87 (F := Ideal) x0 x1 x2 x3 x4 x5 = Y at hzZ ⊢
    rw [host_rowmax Y (i 0) (by decide), show (fun k : Fin 4 => Y (Cert.KernelIdeal.LogSm.aIdx (i 0) k)) = Z from funext hzZ]
    exact max_eq_right ((Finset.le_fold_max _).mpr (Or.inl le_rfl))
  -- a shifted entry
  have hsh : ∀ q : Fin 4, val_main_call3_v5 (F := Ideal) x0 x1 x2 x3 x4 x5 (Cert.KernelIdeal.LogSm.aIdx (i 0) q) = Z q - Cert.KernelIdeal.LogSm.rowMax Z := fun q => by
    rw [val_main_call3_v5_apply, val_main_call3_v4_apply, val_main_call3_v3_apply]
    have e : idx_main_call3_v3 (idx_main_call3_v4 (Cert.KernelIdeal.LogSm.aIdx (i 0) q)) = rowIdx (i 0) := funext fun a => by match a with | ⟨0, _⟩ => rfl
    rw [e, hM, hzZ q]
    rfl
  -- the logarithm of the row's sum of exponentials
  have hL : val_main_call3_v10 (F := Ideal) x0 x1 x2 x3 x4 x5 i = Ideal.log (∑ q : Fin 4, Ideal.exp (Z q - Cert.KernelIdeal.LogSm.rowMax Z)) := by
    rw [val_main_call3_v10_apply, val_main_call3_v9_apply, val_main_call3_v8_apply, val_main_call3_v7_apply, val_main_call3_cst_1_apply]
    have e : idx_main_call3_v8 (idx_main_call3_v10 i) = rowIdx (i 0) := funext fun a => by match a with | ⟨0, _⟩ => rfl
    rw [e]
    simp only [Ideal.hostUnary_log_def, Ideal.ofBits_def, Ideal.ofBits_zero_f32, zero_add]
    refine congrArg Ideal.log (Finset.sum_congr rfl fun k _ => ?_)
    have e7 : idx_main_call3_v7 (rowIdx (i 0)) k = Cert.KernelIdeal.LogSm.aIdx (i 0) k := funext fun a => by match a with | ⟨0, _⟩ => rfl | ⟨1, _⟩ => rfl
    rw [e7, val_main_call3_v6_apply, hsh k]
    rfl
  rw [val_main_v88_apply, hL, (congrArg (val_main_call3_v5 (F := Ideal) x0 x1 x2 x3 x4 x5) hi).trans (hsh (i 1))]
  subst hZ
  rfl

end Cert.Bridge

end
-- ==== Proof.Chain.lean ====
/-
  The kernel's program between its three pallas_calls, read against the reference's stages.

  Around the regions the kernel's @main applies the very host operations the reference applies: it appends the self
  loops to the two rows of the edge list, counts in-degrees by a scatter-add of ones, takes d^(-1/2) where the degree is
  positive, gathers that at the sources and the destinations and multiplies (the edge weights); and after each of the
  first two regions it gathers the region's rows at the sources, scales them by the edge weights and scatter-adds them
  into the destinations. (The kernel stores the two products in the narrower float format and widens them after the
  gather; over the extended reals both changes of format are the identity.) So the contents of each buffer at each
  boundary of @main are one of the reference's stages of the launch arguments:
    entry of region 0   the concatenated sources / destinations, the edge weights, the arguments
    exit of region 0    the first product                               (Dense1.final, Bridge.prod_eq)
    entry of region 1   its aggregation over the edges; the bias as a [1, 16] row
    exit of region 1    bias, clamp, second product                      (Dense2.final, Bridge.hidden_eq)
    entry of region 2   its aggregation over the edges; the bias as a [1, 4] row
    exit of region 2    the log-softmax of the biased rows: the reference's result (LogSm.final, Bridge.rows_eq)
  A buffer that a stretch of host operations or a region does not write keeps its contents through it.
-/
import proofs.«402008_j45853070852446_3_alg».proof.Proof.Gen.KernelIdeal.Frame
import proofs.«402008_j45853070852446_3_alg».proof.Proof.Bridge
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## The host stretches, over any float family

Each stretch of host operations is read from an arbitrary valuation `V` of the buffers: its results are the reference's
stages of the edge list whenever the buffers it reads hold the stages before them. (Stated for any float family: the
operations are then opaque and the two spellings of a stage meet without computing anything.) -/

section Host

variable {F : FTy → Type} [FloatOps F] (V : Valuation τ sig (Elt F)) (e : (⟨Cert.ReferenceIdeal.S2x3200000, .i32⟩ : BufTy).Contents (Elt F))

/-- The edge weights, from the index arrays and what the degree count left: the select of d^(-1/2) against zero,
    gathered at the sources and at the destinations, multiplied. -/
theorem wt_of (h3 : V (Proc.devRef .tc main_v3) = Cert.ReferenceIdeal.ReadP.val_main_v3 (F := F) e)
    (h6 : V (Proc.devRef .tc main_v6) = Cert.ReferenceIdeal.ReadP.val_main_v6 (F := F) e)
    (h12 : V (Proc.devRef .tc main_v12) = Cert.ReferenceIdeal.ReadP.val_main_v12 (F := F) e)
    (h13 : V (Proc.devRef .tc main_v13) = Cert.ReferenceIdeal.ReadP.val_main_v13 (F := F) e)
    (h0 : V (Proc.devRef .tc main_cst_2) = Cert.ReferenceIdeal.ReadP.val_main_cst_2 (F := F)) :
    after hostOps0_2 (after hostOps0_1 V) (Proc.devRef .tc main_v29) = Cert.ReferenceIdeal.ReadP.val_main_v29 (F := F) e := by
  after_results_simp
  rw [h3, h6, h12, h13, h0]
  rfl

/-- A 16-wide array of rows in the narrower float format, gathered at the sources, widened, scaled by the edge weights
    and summed into the destinations. -/
def aggK16 (y : FVec F S100000x16 .bf16) : FVec F S100000x16 .f32 :=
  Host.scatterAdd scatter_S100000x16_S3300000x1_S3300000x16_1_0_0_1 (Cert.ReferenceIdeal.ReadP.val_main_v41 (F := F)) (Cert.ReferenceIdeal.ReadP.val_main_v42 (F := F) e)
    (mulf (extf .f32 (Host.gather gather_S100000x16_S3300000x1_S3300000x16_1_0_n_n_0_1_116 y (Cert.ReferenceIdeal.ReadP.val_main_v36 (F := F) e)) bitsLt_bf16_f32)
      (Cert.ReferenceIdeal.ReadP.val_main_v39 (F := F) e))

/-- The same for a 4-wide array (the second layer's). -/
def aggK4 (y : FVec F S100000x4 .bf16) : FVec F S100000x4 .f32 :=
  Host.scatterAdd scatter_S100000x4_S3300000x1_S3300000x4_1_0_0_1 (Cert.ReferenceIdeal.ReadP.val_main_v82 (F := F)) (Cert.ReferenceIdeal.ReadP.val_main_v83 (F := F) e)
    (mulf (extf .f32 (Host.gather gather_S100000x4_S3300000x1_S3300000x4_1_0_n_n_0_1_14 y (Cert.ReferenceIdeal.ReadP.val_main_v77 (F := F) e)) bitsLt_bf16_f32)
      (Cert.ReferenceIdeal.ReadP.val_main_v80 (F := F) e))

/-- The stretch after the first region aggregates that region's output. -/
theorem agg1_of (h3 : V (Proc.devRef .tc main_v3) = Cert.ReferenceIdeal.ReadP.val_main_v3 (F := F) e)
    (h6 : V (Proc.devRef .tc main_v6) = Cert.ReferenceIdeal.ReadP.val_main_v6 (F := F) e)
    (h29 : V (Proc.devRef .tc main_v29) = Cert.ReferenceIdeal.ReadP.val_main_v29 (F := F) e) :
    after hostOps1 V (Proc.devRef .tc main_v44) = aggK16 e (V (Proc.devRef .tc main_v30)) := by
  after_results_simp
  rw [h3, h6, h29]
  rfl

/-- The stretch after the second region aggregates that region's output (the reference recomputes the edge weights
    and the source indices for its second layer: the same operations on the same edge list). -/
theorem agg2_of (h3 : V (Proc.devRef .tc main_v3) = Cert.ReferenceIdeal.ReadP.val_main_v3 (F := F) e)
    (h6 : V (Proc.devRef .tc main_v6) = Cert.ReferenceIdeal.ReadP.val_main_v6 (F := F) e)
    (h29 : V (Proc.devRef .tc main_v29) = Cert.ReferenceIdeal.ReadP.val_main_v29 (F := F) e) :
    after hostOps2 V (Proc.devRef .tc main_v60) = aggK4 e (V (Proc.devRef .tc main_v46)) := by
  after_results_simp
  rw [h3, h6, h29]
  rfl

end Host

/-- Over the extended reals the widening is the identity: the first aggregation of the reference's first product is the
    reference's own. -/
theorem aggK16_eq (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x16, .f32⟩ : BufTy).Contents (Elt Ideal)) :
    aggK16 (F := Ideal) x1 (Cert.ReferenceIdeal.ReadP.val_main_v30 (F := Ideal) x0 x2) = Cert.ReferenceIdeal.ReadP.val_main_v43 (F := Ideal) x0 x1 x2 := rfl

/-- … and the second aggregation of the reference's second product is the reference's own. -/
theorem aggK4_eq (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S128x16, .f32⟩ : BufTy).Contents (Elt Ideal))
    (x3 : (⟨Cert.ReferenceIdeal.S16, .f32⟩ : BufTy).Contents (Elt Ideal))
    (x4 : (⟨Cert.ReferenceIdeal.S16x4, .f32⟩ : BufTy).Contents (Elt Ideal)) :
    aggK4 (F := Ideal) x1 (Cert.ReferenceIdeal.ReadP.val_main_v71 (F := Ideal) x0 x1 x2 x3 x4) = Cert.ReferenceIdeal.ReadP.val_main_v84 (F := Ideal) x0 x1 x2 x3 x4 := rfl

variable (m : (ℓ : Loc nD τ sig) → Buf (Elt Ideal) ℓ) (ρ : Dev nD → PrngReg)

/-- The launch arguments on core `c`: features, edge list, first weights, first bias, second weights, second bias. -/
abbrev aX (c : Dev nD) := m ((c : Thread nD τ).loc main_arg0)
abbrev aE (c : Dev nD) := m ((c : Thread nD τ).loc main_arg1)
abbrev aW1 (c : Dev nD) := m ((c : Thread nD τ).loc main_arg2)
abbrev aB1 (c : Dev nD) := m ((c : Thread nD τ).loc main_arg3)
abbrev aW2 (c : Dev nD) := m ((c : Thread nD τ).loc main_arg4)
abbrev aB2 (c : Dev nD) := m ((c : Thread nD τ).loc main_arg5)

/-! ## At the entry of region 0 -/

theorem W3_arg0 (c : Dev nD) : W3 m ρ c (Proc.devRef .tc main_arg0) = aX m c := by
  show after hostOps0_2 (after hostOps0_1 (after hostOps0 (W0 m ρ c))) (Proc.devRef .tc main_arg0) = _
  after_results_simp
theorem W3_arg2 (c : Dev nD) : W3 m ρ c (Proc.devRef .tc main_arg2) = aW1 m c := by
  show after hostOps0_2 (after hostOps0_1 (after hostOps0 (W0 m ρ c))) (Proc.devRef .tc main_arg2) = _
  after_results_simp
theorem W3_arg3 (c : Dev nD) : W3 m ρ c (Proc.devRef .tc main_arg3) = aB1 m c := by
  show after hostOps0_2 (after hostOps0_1 (after hostOps0 (W0 m ρ c))) (Proc.devRef .tc main_arg3) = _
  after_results_simp
theorem W3_arg4 (c : Dev nD) : W3 m ρ c (Proc.devRef .tc main_arg4) = aW2 m c := by
  show after hostOps0_2 (after hostOps0_1 (after hostOps0 (W0 m ρ c))) (Proc.devRef .tc main_arg4) = _
  after_results_simp
theorem W3_arg5 (c : Dev nD) : W3 m ρ c (Proc.devRef .tc main_arg5) = aB2 m c := by
  show after hostOps0_2 (after hostOps0_1 (after hostOps0 (W0 m ρ c))) (Proc.devRef .tc main_arg5) = _
  after_results_simp

/-- The sources with the self loops appended. -/
theorem W3_src (c : Dev nD) : W3 m ρ c (Proc.devRef .tc main_v3) = Cert.ReferenceIdeal.ReadP.val_main_v3 (F := Ideal) (aE m c) := by
  show after hostOps0_2 (after hostOps0_1 (after hostOps0 (W0 m ρ c))) (Proc.devRef .tc main_v3) = _
  after_results
  rfl
/-- The destinations with the self loops appended. -/
theorem W3_dst (c : Dev nD) : W3 m ρ c (Proc.devRef .tc main_v6) = Cert.ReferenceIdeal.ReadP.val_main_v6 (F := Ideal) (aE m c) := by
  show after hostOps0_2 (after hostOps0_1 (after hostOps0 (W0 m ρ c))) (Proc.devRef .tc main_v6) = _
  after_results
  rfl
/-! The first stretch by itself: the two index arrays, and what the degree count leaves for the edge weights. -/

theorem W1_src (c : Dev nD) : W1 m ρ c (Proc.devRef .tc main_v3) = Cert.ReferenceIdeal.ReadP.val_main_v3 (F := Ideal) (aE m c) := by
  show after hostOps0 (W0 m ρ c) (Proc.devRef .tc main_v3) = _
  after_results
  rfl
theorem W1_dst (c : Dev nD) : W1 m ρ c (Proc.devRef .tc main_v6) = Cert.ReferenceIdeal.ReadP.val_main_v6 (F := Ideal) (aE m c) := by
  show after hostOps0 (W0 m ρ c) (Proc.devRef .tc main_v6) = _
  after_results
  rfl
/-- Where the in-degree is positive. -/
theorem W1_pos (c : Dev nD) : W1 m ρ c (Proc.devRef .tc main_v12) = Cert.ReferenceIdeal.ReadP.val_main_v12 (F := Ideal) (aE m c) := by
  show after hostOps0 (W0 m ρ c) (Proc.devRef .tc main_v12) = _
  after_results
  rfl
/-- The in-degree to the power −1/2. -/
theorem W1_rsqrt (c : Dev nD) : W1 m ρ c (Proc.devRef .tc main_v13) = Cert.ReferenceIdeal.ReadP.val_main_v13 (F := Ideal) (aE m c) := by
  show after hostOps0 (W0 m ρ c) (Proc.devRef .tc main_v13) = _
  after_results
  rfl
/-- The zero used where the in-degree is zero. -/
theorem W1_zero (c : Dev nD) : W1 m ρ c (Proc.devRef .tc main_cst_2) = Cert.ReferenceIdeal.ReadP.val_main_cst_2 (F := Ideal) := by
  show after hostOps0 (W0 m ρ c) (Proc.devRef .tc main_cst_2) = _
  after_results
  rfl

/-- The edge weights: the select of d^(-1/2) against zero, gathered at the sources and at the destinations, multiplied. -/
theorem W3_wt (c : Dev nD) : W3 m ρ c (Proc.devRef .tc main_v29) = Cert.ReferenceIdeal.ReadP.val_main_v29 (F := Ideal) (aE m c) :=
  wt_of (W1 m ρ c) (aE m c) (W1_src m ρ c) (W1_dst m ρ c) (W1_pos m ρ c) (W1_rsqrt m ρ c) (W1_zero m ρ c)

/-! ## At the exit of region 0 -/

theorem W4_src (c : Dev nD) : W4 m ρ c (Proc.devRef .tc main_v3) = Cert.ReferenceIdeal.ReadP.val_main_v3 (F := Ideal) (aE m c) :=
  (W4_of_ne m ρ c main_v3 (by decide)).trans (W3_src m ρ c)
theorem W4_dst (c : Dev nD) : W4 m ρ c (Proc.devRef .tc main_v6) = Cert.ReferenceIdeal.ReadP.val_main_v6 (F := Ideal) (aE m c) :=
  (W4_of_ne m ρ c main_v6 (by decide)).trans (W3_dst m ρ c)
theorem W4_wt (c : Dev nD) : W4 m ρ c (Proc.devRef .tc main_v29) = Cert.ReferenceIdeal.ReadP.val_main_v29 (F := Ideal) (aE m c) :=
  (W4_of_ne m ρ c main_v29 (by decide)).trans (W3_wt m ρ c)
theorem W4_arg3 (c : Dev nD) : W4 m ρ c (Proc.devRef .tc main_arg3) = aB1 m c :=
  (W4_of_ne m ρ c main_arg3 (by decide)).trans (W3_arg3 m ρ c)
theorem W4_arg4 (c : Dev nD) : W4 m ρ c (Proc.devRef .tc main_arg4) = aW2 m c :=
  (W4_of_ne m ρ c main_arg4 (by decide)).trans (W3_arg4 m ρ c)
theorem W4_arg5 (c : Dev nD) : W4 m ρ c (Proc.devRef .tc main_arg5) = aB2 m c :=
  (W4_of_ne m ρ c main_arg5 (by decide)).trans (W3_arg5 m ρ c)

/-- The first region leaves the reference's first product. -/
theorem W4_prod (c : Dev nD) : W4 m ρ c (Proc.devRef .tc main_v30) = Cert.ReferenceIdeal.ReadP.val_main_v30 (F := Ideal) (aX m c) (aW1 m c) := by
  refine (W4_arr m ρ c 2).trans ((Dense1.final (V3 m ρ) c).trans ?_)
  rw [show V3 m ρ c main_arg0 = aX m c from W3_arg0 m ρ c, show V3 m ρ c main_arg2 = aW1 m c from W3_arg2 m ρ c]
  exact (Cert.Bridge.prod_eq _ _).symm

/-! ## At the entry of region 1 -/

theorem W5_src (c : Dev nD) : W5 m ρ c (Proc.devRef .tc main_v3) = Cert.ReferenceIdeal.ReadP.val_main_v3 (F := Ideal) (aE m c) := by
  show after hostOps1 (W4 m ρ c) (Proc.devRef .tc main_v3) = _
  after_results_simp
  exact W4_src m ρ c
theorem W5_dst (c : Dev nD) : W5 m ρ c (Proc.devRef .tc main_v6) = Cert.ReferenceIdeal.ReadP.val_main_v6 (F := Ideal) (aE m c) := by
  show after hostOps1 (W4 m ρ c) (Proc.devRef .tc main_v6) = _
  after_results_simp
  exact W4_dst m ρ c
theorem W5_wt (c : Dev nD) : W5 m ρ c (Proc.devRef .tc main_v29) = Cert.ReferenceIdeal.ReadP.val_main_v29 (F := Ideal) (aE m c) := by
  show after hostOps1 (W4 m ρ c) (Proc.devRef .tc main_v29) = _
  after_results_simp
  exact W4_wt m ρ c
theorem W5_arg4 (c : Dev nD) : W5 m ρ c (Proc.devRef .tc main_arg4) = aW2 m c := by
  show after hostOps1 (W4 m ρ c) (Proc.devRef .tc main_arg4) = _
  after_results_simp
  exact W4_arg4 m ρ c
theorem W5_arg5 (c : Dev nD) : W5 m ρ c (Proc.devRef .tc main_arg5) = aB2 m c := by
  show after hostOps1 (W4 m ρ c) (Proc.devRef .tc main_arg5) = _
  after_results_simp
  exact W4_arg5 m ρ c

/-- The first aggregation over the edges. -/
theorem W5_agg (c : Dev nD) : W5 m ρ c (Proc.devRef .tc main_v44) = Cert.ReferenceIdeal.ReadP.val_main_v43 (F := Ideal) (aX m c) (aE m c) (aW1 m c) := by
  refine (agg1_of (W4 m ρ c) (aE m c) (W4_src m ρ c) (W4_dst m ρ c) (W4_wt m ρ c)).trans ?_
  rw [W4_prod]
  exact aggK16_eq _ _ _

/-- The first bias, held as a [1, 16] row. -/
theorem W5_bias (c : Dev nD) (k : Fin 16) :
    (W5 m ρ c (Proc.devRef .tc main_v45) : S1x16.Idx → EReal) (Dense2.bIdx k) = aB1 m c (Cert.Bridge.b1Idx k) := by
  show after hostOps1 (W4 m ρ c) (Proc.devRef .tc main_v45) (Dense2.bIdx k) = _
  after_results_simp
  rw [W4_arg3]
  exact shapeCast_apply (s := S16) (t := S1x16) (aB1 m c) shapeCasts_S16_S1x16 (Dense2.bIdx k) (Cert.Bridge.b1Idx k) (by
    show (S16.rowMajor (Cert.Bridge.b1Idx k)).val = (S1x16.rowMajor (Dense2.bIdx k)).val
    rw [Shape.rowMajor_val_two, Shape.rowMajor_val_one]
    show k.val = 0 * 16 + k.val
    omega)

/-! ## At the exit of region 1 -/

theorem W6_src (c : Dev nD) : W6 m ρ c (Proc.devRef .tc main_v3) = Cert.ReferenceIdeal.ReadP.val_main_v3 (F := Ideal) (aE m c) :=
  (W6_of_ne m ρ c main_v3 (by decide)).trans (W5_src m ρ c)
theorem W6_dst (c : Dev nD) : W6 m ρ c (Proc.devRef .tc main_v6) = Cert.ReferenceIdeal.ReadP.val_main_v6 (F := Ideal) (aE m c) :=
  (W6_of_ne m ρ c main_v6 (by decide)).trans (W5_dst m ρ c)
theorem W6_wt (c : Dev nD) : W6 m ρ c (Proc.devRef .tc main_v29) = Cert.ReferenceIdeal.ReadP.val_main_v29 (F := Ideal) (aE m c) :=
  (W6_of_ne m ρ c main_v29 (by decide)).trans (W5_wt m ρ c)
theorem W6_arg5 (c : Dev nD) : W6 m ρ c (Proc.devRef .tc main_arg5) = aB2 m c :=
  (W6_of_ne m ρ c main_arg5 (by decide)).trans (W5_arg5 m ρ c)

/-- The second region leaves the reference's bias-add, clamp and second product. -/
theorem W6_hidden (c : Dev nD) :
    W6 m ρ c (Proc.devRef .tc main_v46) = Cert.ReferenceIdeal.ReadP.val_main_v71 (F := Ideal) (aX m c) (aE m c) (aW1 m c) (aB1 m c) (aW2 m c) := by
  refine (W6_arr m ρ c 3).trans ((Dense2.final (V5 m ρ) c).trans ?_)
  rw [show V5 m ρ c main_v44 = Cert.ReferenceIdeal.ReadP.val_main_v43 (F := Ideal) (aX m c) (aE m c) (aW1 m c) from W5_agg m ρ c,
    show V5 m ρ c main_arg4 = aW2 m c from W5_arg4 m ρ c]
  exact (Cert.Bridge.hidden_eq _ _ _ _ _ _ (W5_bias m ρ c)).symm

/-! ## At the entry of region 2 -/

/-- The second aggregation over the edges (the reference recomputes the edge weights and the source indices for it:
    the same operations on the same edge list). -/
theorem W7_agg (c : Dev nD) :
    W7 m ρ c (Proc.devRef .tc main_v60) = Cert.ReferenceIdeal.ReadP.val_main_v84 (F := Ideal) (aX m c) (aE m c) (aW1 m c) (aB1 m c) (aW2 m c) := by
  refine (agg2_of (W6 m ρ c) (aE m c) (W6_src m ρ c) (W6_dst m ρ c) (W6_wt m ρ c)).trans ?_
  rw [W6_hidden]
  exact aggK4_eq _ _ _ _ _

/-- The second bias, held as a [1, 4] row. -/
theorem W7_bias (c : Dev nD) (q : Fin 4) :
    (W7 m ρ c (Proc.devRef .tc main_v61) : S1x4.Idx → EReal) (LogSm.bIdx q) = aB2 m c (Cert.Bridge.b2Idx q) := by
  show after hostOps2 (W6 m ρ c) (Proc.devRef .tc main_v61) (LogSm.bIdx q) = _
  after_results_simp
  rw [W6_arg5]
  exact shapeCast_apply (s := S4) (t := S1x4) (aB2 m c) shapeCasts_S4_S1x4 (LogSm.bIdx q) (Cert.Bridge.b2Idx q) (by
    show (S4.rowMajor (Cert.Bridge.b2Idx q)).val = (S1x4.rowMajor (LogSm.bIdx q)).val
    rw [Shape.rowMajor_val_two, Shape.rowMajor_val_one]
    show q.val = 0 * 4 + q.val
    omega)

/-! ## At the exit of region 2: the result -/

/-- The kernel's result array ends holding the reference's result of the launch arguments. -/
theorem result (c : Dev nD) : W8 m ρ c (Proc.devRef .tc main_v62)
    = Cert.ReferenceIdeal.ReadP.val_main_v88 (F := Ideal) (aX m c) (aE m c) (aW1 m c) (aB1 m c) (aW2 m c) (aB2 m c) := by
  refine (W8_arr m ρ c 2).trans ((LogSm.final (V7 m ρ) c).trans ?_)
  rw [show V7 m ρ c main_v60 = Cert.ReferenceIdeal.ReadP.val_main_v84 (F := Ideal) (aX m c) (aE m c) (aW1 m c) (aB1 m c) (aW2 m c) from W7_agg m ρ c]
  exact (Cert.Bridge.rows_eq _ _ _ _ _ _ _ (W7_bias m ρ c)).symm

end Cert.KernelIdeal.Chain

end
-- ==== Proof.lean ====
/-
  A two-layer graph convolution with a row-wise log-softmax, as three Pallas kernels among host gathers and
  scatter-adds, against its jnp reference, over the extended reals.

  With the self loops appended to the edge list, d the in-degree of a node and n(e) = d(src e)^(-1/2) · d(dst e)^(-1/2)
  (zero where a degree is zero), both programs compute
      h₁ = x · W₁,   a₁(v) = Σ_{dst e = v} h₁(src e) · n(e),
      h₂ = max(a₁ + b₁, 0) · W₂,   a₂(v) = Σ_{dst e = v} h₂(src e) · n(e),
      out(v, ·) = log-softmax of the row a₂(v, ·) + b₂.
  The kernel computes h₁, h₂ and the log-softmax in pallas_calls over blocks of 4000 nodes (rounding h₁ and h₂ to a
  narrower float format, which over the extended reals is the identity) and leaves the degree count, the edge weights,
  the gathers and the scatter-adds to the same host operations the reference uses; the reference computes the edge
  weights once per layer, the kernel once.

  The three frames: the kernel's two are the generated ones; the reference's is its run with the result dropped.
  Nothing was rewritten by the idealization, so there is nothing to preserve. The algebraic claim: the kernel's run ends
  with its result array at the last boundary's contents (KRun.lean), which is the reference's last stage of the launch
  arguments (Chain.lean: region by region, each region's blocks tiling one whole-array function — Dense1, Dense2,
  LogSm — that is the reference's stage — Bridge); the reference's run ends at that stage of its own arguments, and the
  arguments agree. No law of the extended reals is needed beyond reading both sides index by index: the sums, the
  maxima and the logarithms are the same terms, so the finiteness of the inputs is never used.
-/
import proofs.«402008_j45853070852446_3_alg».proof.Defs
import proofs.«402008_j45853070852446_3_alg».proof.Proof.Gen.Kernel
import proofs.«402008_j45853070852446_3_alg».proof.Proof.Gen.Kernel.Skeleton
import proofs.«402008_j45853070852446_3_alg».proof.Proof.Gen.Kernel.Launch
import proofs.«402008_j45853070852446_3_alg».proof.Proof.Gen.Kernel.Points
import proofs.«402008_j45853070852446_3_alg».proof.Proof.Gen.Kernel.Frame
import proofs.«402008_j45853070852446_3_alg».proof.Proof.Gen.KernelIdeal
import proofs.«402008_j45853070852446_3_alg».proof.Proof.Gen.KernelIdeal.Skeleton
import proofs.«402008_j45853070852446_3_alg».proof.Proof.Gen.KernelIdeal.Launch
import proofs.«402008_j45853070852446_3_alg».proof.Proof.Gen.KernelIdeal.Points
import proofs.«402008_j45853070852446_3_alg».proof.Proof.Gen.KernelIdeal.Frame
import proofs.«402008_j45853070852446_3_alg».proof.Proof.Gen.ReferenceIdeal
import proofs.«402008_j45853070852446_3_alg».proof.Proof.Gen.Pre_finite_inputs
import proofs.«402008_j45853070852446_3_alg».proof.Proof.KRun
import proofs.«402008_j45853070852446_3_alg».proof.Proof.RefRun
import proofs.«402008_j45853070852446_3_alg».proof.Proof.RefRead
import proofs.«402008_j45853070852446_3_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the reference's last stage of the kernel's launch arguments. -/
theorem algebraic : Cert.algebraic_KernelIdeal_ReferenceIdeal := by
  intro m ρ m' ρ' _ hagree
  refine ⟨fun c => Cert.ReferenceIdeal.ReadP.val_main_v88 (F := Ideal) (Cert.KernelIdeal.Chain.aX m c) (Cert.KernelIdeal.Chain.aE m c)
    (Cert.KernelIdeal.Chain.aW1 m c) (Cert.KernelIdeal.Chain.aB1 m c) (Cert.KernelIdeal.Chain.aW2 m c) (Cert.KernelIdeal.Chain.aB2 m c), ?_, ?_⟩
  · exact (θ_run Cert.KernelIdeal.defs _ _).mono
      (fun _ h c => ⟨(h c).1.trans (Cert.KernelIdeal.Chain.result m ρ c), (h c).2⟩) (Cert.KernelIdeal.Result.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v88_eq]
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
